-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S2048x1 : Shape := ⟨2, ![2048, 1]⟩
abbrev S2048 : Shape := ⟨1, ![2048]⟩
abbrev S1x1x2048 : Shape := ⟨3, ![1, 1, 2048]⟩
abbrev S1x512x2048 : Shape := ⟨3, ![1, 512, 2048]⟩
abbrev S1x3x2048 : Shape := ⟨3, ![1, 3, 2048]⟩
abbrev S1x515x2048 : Shape := ⟨3, ![1, 515, 2048]⟩
abbrev S4x3x2048 : Shape := ⟨3, ![4, 3, 2048]⟩
abbrev S4x2048x3 : Shape := ⟨3, ![4, 2048, 3]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S2048x1, .f32⟩
  | .hbm, ⟨3, _⟩ => ⟨S2048, .f32⟩
  | .hbm, ⟨4, _⟩ => ⟨S1x1x2048, .f32⟩
  | .hbm, ⟨5, _⟩ => ⟨S2048x1, .f32⟩
  | .hbm, ⟨6, _⟩ => ⟨S2048, .f32⟩
  | .hbm, ⟨7, _⟩ => ⟨S1x1x2048, .f32⟩
  | .hbm, ⟨8, _⟩ => ⟨S2048x1, .f32⟩
  | .hbm, ⟨9, _⟩ => ⟨S2048, .f32⟩
  | .hbm, ⟨10, _⟩ => ⟨S1x1x2048, .f32⟩
  | .hbm, ⟨11, _⟩ => ⟨S2048x1, .f32⟩
  | .hbm, ⟨12, _⟩ => ⟨S2048, .f32⟩
  | .hbm, ⟨13, _⟩ => ⟨S1x1x2048, .f32⟩
  | .hbm, ⟨14, _⟩ => ⟨S4x4096x2048, .f32⟩
  | .hbm, ⟨15, _⟩ => ⟨S4x3x2048, .f32⟩
  | .hbm, ⟨16, _⟩ => ⟨S4x2048x3, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x3x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2048x4_S2048x1_0_0 : S2048x4.Slices ![0, 0] S2048x1
  shapeCasts_S2048x1_S2048 : S2048x1.ShapeCasts S2048
  shapeCasts_S2048_S1x1x2048 : S2048.ShapeCasts S1x1x2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S1x3x2048 : S1x3x2048.ShapeCasts S1x3x2048
  inb_S1x512x2048_S1x512x2048_0_0_0 : ∀ a, (![0, 0, 0] : Fin 3 → Nat) a + S1x512x2048.size a ≤ S1x512x2048.size a
  h_S1x512x2048 : 0 < S1x512x2048.numel
  concatenates_S1x3x2048_S1x512x2048_S1x515x2048_d1 : Shape.Concatenates [S1x3x2048, S1x512x2048] S1x515x2048 1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  slices_S1x515x2048_o0_0_0_S1x512x2048 : S1x515x2048.Slices ![0, 0, 0] S1x512x2048
  broadcasts_S1x1x2048_S1x512x2048 : S1x1x2048.Broadcasts S1x512x2048
  slices_S1x515x2048_o0_1_0_S1x512x2048 : S1x515x2048.Slices ![0, 1, 0] S1x512x2048
  slices_S1x515x2048_o0_2_0_S1x512x2048 : S1x515x2048.Slices ![0, 2, 0] S1x512x2048
  slices_S1x515x2048_o0_3_0_S1x512x2048 : S1x515x2048.Slices ![0, 3, 0] S1x512x2048
  slices_S1x512x2048_o0_509_0_S1x3x2048 : S1x512x2048.Slices ![0, 509, 0] S1x3x2048
  slices_S4x4096x2048_S4x3x2048_0_4093_0 : S4x4096x2048.Slices ![0, 4093, 0] S4x3x2048
  transposes_S4x3x2048_S4x2048x3_0_2_1 : S4x3x2048.Transposes [0, 2, 1] S4x2048x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S1x1x2048.size a
  hwx0_1 : ∀ i : grid0.Coords, EltTy.bits .f32 = 32 ∨ (Rect.block (s := S1x1x2048) S1x1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S1x1x2048.size a
  hwx0_2 : ∀ i : grid0.Coords, EltTy.bits .f32 = 32 ∨ (Rect.block (s := S1x1x2048) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S1x1x2048.size a
  hwx0_3 : ∀ i : grid0.Coords, EltTy.bits .f32 = 32 ∨ (Rect.block (s := S1x1x2048) S1x1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S1x1x2048.size a
  hwx0_4 : ∀ i : grid0.Coords, EltTy.bits .f32 = 32 ∨ (Rect.block (s := S1x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S4x4096x2048.size a
  hwx0_5 : ∀ i : grid0.Coords, EltTy.bits .f32 = 32 ∨ (Rect.block (s := S4x4096x2048) S1x512x2048.size (cc0_transform_5 i) (hinb0_5 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩
abbrev S4x3x2048 : Shape := ⟨3, ![4, 3, 2048]⟩
abbrev S4x2048x3 : Shape := ⟨3, ![4, 2048, 3]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x3x2048, .f32⟩
  | .hbm, ⟨36, _⟩ => ⟨S4x2048x3, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1
  slices_S4x4099x2048_S4x3x2048_0_4096_0 : S4x4099x2048.Slices ![0, 4096, 0] S4x3x2048
  transposes_S4x3x2048_S4x2048x3_0_2_1 : S4x3x2048.Transposes [0, 2, 1] S4x2048x3

variable [Facts₀]

class Facts : Prop extends Facts₀ where

variable [Facts]
-- ==== Proof.ConvPieces.lean ====
/-
  What the body's stores leave behind, in each of its two cases, as functions of what it loaded.

  At a batch's first tile (case A) the body sets the carried rows to zero, reads them back, stores the
  tile computed from them, and stores the tile's last three rows as the new carried rows. At every other
  tile (case B) it does the same from the carried rows the previous point left. Each buffer is written
  whole, so what it holds afterwards is the last store's value.
-/
import proofs.«140467_j21449066676463_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0, 0] : Fin 3 → Nat) = fun _ => 0 := funext fun a => by fin_cases a <;> rfl

/-- Case B, the output tile: computed from the tile of x, the carried rows `xs0` and the four weight rows. -/
theorem tileB (c : Dev nD) (i : grid0.Coords) (a2 : Memref sig .tc .vmem S1x512x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x512x2048 .f32) (h7 : a7.IsWhole) (a8 : Memref sig .tc .vmem S1x3x2048 .f32) (h8 : a8.IsWhole) (hc : ¬cond0_0 i) (x0 : Vec F S1x512x2048 .f32) (x1 x2 x3 x4 : Vec F S1x1x2048 .f32) (xs0 : Vec F S1x3x2048 .f32) :
    out0_B_5 c i a2 h2 a3 h3 a4 h4 a5 h5 a6 h6 a7 h7 a8 h8 hc x0 x1 x2 x3 x4 xs0 = k0_pay3 x0 xs0 x1 x2 x3 x4 := by
  unfold out0_B_5
  rw [View.read_writes_eq_canon _ _ _ (cover0_B_5 c i a2 h2 a3 h3 a4 h4 a5 h5 a6 h6 a7 h7 a8 h8 hc x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S1x512x2048) hz, View.ld_unit_zero (S := S1x1x2048) hz, View.ld_unit_zero (S := S1x3x2048) hz]

/-- Case B, the carried rows afterwards: the last three rows of the tile of x. -/
theorem carryB (c : Dev nD) (i : grid0.Coords) (a2 : Memref sig .tc .vmem S1x512x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x512x2048 .f32) (h7 : a7.IsWhole) (a8 : Memref sig .tc .vmem S1x3x2048 .f32) (h8 : a8.IsWhole) (hc : ¬cond0_0 i) (x0 : Vec F S1x512x2048 .f32) (x1 x2 x3 x4 : Vec F S1x1x2048 .f32) (xs0 : Vec F S1x3x2048 .f32) :
    sout0_B_0 c i a2 h2 a3 h3 a4 h4 a5 h5 a6 h6 a7 h7 a8 h8 hc x0 x1 x2 x3 x4 xs0 = k0_pay1 (k0_pay4 x0) := by
  unfold sout0_B_0
  rw [View.read_writes_eq_canon _ _ _ (scover0_B_0 c i a2 h2 a3 h3 a4 h4 a5 h5 a6 h6 a7 h7 a8 h8 hc x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S1x512x2048) hz, View.ld_unit_zero (S := S1x1x2048) hz, View.ld_unit_zero (S := S1x3x2048) hz]

/-- Case A, the output tile: as case B's, from carried rows that are zero. -/
theorem tileA (c : Dev nD) (i : grid0.Coords) (a2 : Memref sig .tc .vmem S1x512x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x512x2048 .f32) (h7 : a7.IsWhole) (a8 : Memref sig .tc .vmem S1x3x2048 .f32) (h8 : a8.IsWhole) (hc : cond0_0 i) (x0 : Vec F S1x512x2048 .f32) (x1 x2 x3 x4 : Vec F S1x1x2048 .f32) :
    out0_A_5 c i a2 h2 a3 h3 a4 h4 a5 h5 a6 h6 a7 h7 a8 h8 hc x0 x1 x2 x3 x4 = k0_pay3 x0 (k0_pay2 (F := F)) x1 x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, h4.read_unread, h5.read_unread, h6.read_unread, View.ld_unit_zero (S := S1x512x2048) hz, View.ld_unit_zero (S := S1x1x2048) hz, View.ld_unit_zero (S := S1x3x2048) hz, View.readCov_unit_zero (S := S1x3x2048) _ hz]

/-- Case A, the carried rows afterwards: the last three rows of the tile of x (the later store covers the reset). -/
theorem carryA (c : Dev nD) (i : grid0.Coords) (a2 : Memref sig .tc .vmem S1x512x2048 .f32) (h2 : a2.IsWhole) (a3 : Memref sig .tc .vmem S1x1x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x512x2048 .f32) (h7 : a7.IsWhole) (a8 : Memref sig .tc .vmem S1x3x2048 .f32) (h8 : a8.IsWhole) (hc : cond0_0 i) (x0 : Vec F S1x512x2048 .f32) (x1 x2 x3 x4 : Vec F S1x1x2048 .f32) :
    sout0_A_0 c i a2 h2 a3 h3 a4 h4 a5 h5 a6 h6 a7 h7 a8 h8 hc x0 x1 x2 x3 x4 = k0_pay1 (k0_pay4 x0) := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_cons_unit_zero (S := S1x3x2048) hz]
  simp only [View.readAt_eq_ld, h2.read_unread, h3.read_unread, h4.read_unread, h5.read_unread, h6.read_unread, View.ld_unit_zero (S := S1x512x2048) hz, View.ld_unit_zero (S := S1x1x2048) hz, View.ld_unit_zero (S := S1x3x2048) hz]

end Cert.KernelIdeal.Pieces

end
-- ==== Proof.ConvSpec.lean ====
/-
  The causal depthwise convolution with four taps, as one function of the argument arrays, and the
  cache of the last three time steps.

  For an input x of shape (4, 4096, 2048) (batch, time, channel) and taps W of shape (2048, 4)
  (channel, tap) the convolution is

      y[b, t, c] = ((W[c,0]·x̄[b,t-3,c] + W[c,1]·x̄[b,t-2,c]) + W[c,2]·x̄[b,t-1,c]) + W[c,3]·x̄[b,t,c]

  with x̄ the input continued by zero before time 0, the sum taken in this order. The cache is
  x[b, 4093 + s, c] stored at (b, c, s).
-/
import Idealize.ShloMosaic.PureOps.Ideal
import Idealize.ShloMosaic.Lib.ValueIdx

noncomputable section

namespace Cert.ConvSpec

open Idealize.ShloMosaic Idealize.ShloMosaic.ValueIdx

/-- (batch, time, channel). -/
abbrev SX : Shape := ⟨3, ![4, 4096, 2048]⟩
/-- (channel, tap). -/
abbrev SW : Shape := ⟨2, ![2048, 4]⟩
/-- (batch, channel, step). -/
abbrev SC : Shape := ⟨3, ![4, 2048, 3]⟩

/-- The input at batch `b`, channel `q` and time `s - 3`, where `s` counts from three steps before the
    start: zero for `s < 3`. -/
def shifted (x : SX.Idx → EReal) (b : Fin 4) (q : Fin 2048) (s : ℕ) (hs : s < 4099) : EReal :=
  if h : 3 ≤ s then x (ix3 b ⟨s - 3, by omega⟩ q) else 0

/-- Tap `k` of the convolution at (b, t, c): the weight times the input `3 - k` steps back. -/
def term (x : SX.Idx → EReal) (W : SW.Idx → EReal) (b : Fin 4) (t : Fin 4096) (q : Fin 2048) (k : Fin 4) : EReal :=
  W (ix2 q k) * shifted x b q (t.val + k.val) (by omega)

/-- The convolution, the four taps added first to last. -/
def conv (x : SX.Idx → EReal) (W : SW.Idx → EReal) : SX.Idx → EReal := fun i =>
  ((term x W (i 0) (i 1) (i 2) 0 + term x W (i 0) (i 1) (i 2) 1) + term x W (i 0) (i 1) (i 2) 2)
    + term x W (i 0) (i 1) (i 2) 3

/-- The last three time steps, channel-major. -/
def cache (x : SX.Idx → EReal) : SC.Idx → EReal := fun j =>
  x (ix3 (j 0) ⟨4093 + (j 2).val, by have h : (j 2).val < 3 := (j 2).isLt; omega⟩ (j 1))

theorem conv_apply (x : SX.Idx → EReal) (W : SW.Idx → EReal) (b : Fin 4) (t : Fin 4096) (q : Fin 2048) :
    conv x W (ix3 b t q) = ((term x W b t q 0 + term x W b t q 1) + term x W b t q 2) + term x W b t q 3 := rfl

theorem shifted_of_lt (x : SX.Idx → EReal) (b : Fin 4) (q : Fin 2048) (s : ℕ) (hs : s < 4099) (h : s < 3) :
    shifted x b q s hs = 0 := by
  unfold shifted; rw [dif_neg (by omega)]

theorem shifted_of_le (x : SX.Idx → EReal) (b : Fin 4) (q : Fin 2048) (s : ℕ) (hs : s < 4099) (h : 3 ≤ s) :
    shifted x b q s hs = x (ix3 b ⟨s - 3, by omega⟩ q) := by
  unfold shifted; rw [dif_pos h]

end Cert.ConvSpec

end
-- ==== Proof.ConvBody.lean ====
/-
  What one grid point of the kernel computes, read at an index.

  The body puts the three carried rows in front of its tile of 512 time steps (515 rows), and stores, at
  row r and channel q of the tile,

      ((w0[q]·rows[r] + w1[q]·rows[r+1]) + w2[q]·rows[r+2]) + w3[q]·rows[r+3],

  the weights broadcast over the rows. It then carries rows 509 to 511 of the tile to the next point; at a
  batch's first tile the carried rows are first set to zero.
-/
import proofs.«140467_j21449066676463_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The 515 rows the taps slide over, at channel q: the three carried rows, then the tile's 512. -/
def rows (h : Vec Ideal S1x3x2048 .f32) (x : Vec Ideal S1x512x2048 .f32) (q : Fin 2048) (s : ℕ) (hs : s < 515) : EReal :=
  if h3 : s < 3 then h (ix3 0 ⟨s, h3⟩ q) else x (ix3 0 ⟨s - 3, by omega⟩ q)

theorem rows_of_lt (h : Vec Ideal S1x3x2048 .f32) (x : Vec Ideal S1x512x2048 .f32) (q : Fin 2048) (s : ℕ) (hs : s < 515)
    (h3 : s < 3) : rows h x q s hs = h (ix3 0 ⟨s, h3⟩ q) := by
  unfold rows; rw [dif_pos h3]

theorem rows_of_le (h : Vec Ideal S1x3x2048 .f32) (x : Vec Ideal S1x512x2048 .f32) (q : Fin 2048) (s : ℕ) (hs : s < 515)
    (h3 : 3 ≤ s) : rows h x q s hs = x (ix3 0 ⟨s - 3, by omega⟩ q) := by
  unfold rows; rw [dif_neg (by omega)]

/-- The concatenation along the time axis at row s is the carried rows below 3 and the tile from 3 on. -/
theorem concat_at (h : Vec Ideal S1x3x2048 .f32) (x : Vec Ideal S1x512x2048 .f32) (s : ℕ) (hs : s < 515) (q : Fin 2048) :
    concatenate S1x515x2048 1 [⟨S1x3x2048, h⟩, ⟨S1x512x2048, x⟩] concatenates_S1x3x2048_S1x512x2048_S1x515x2048_d1
      (ix3 0 ⟨s, hs⟩ q) = rows h x q s hs := by
  by_cases h3 : s < 3
  · rw [rows_of_lt h x q s hs h3]
    exact concatenate_pair_apply_left 1 h x _ (ix3 0 ⟨s, hs⟩ q) rfl (ix3 0 ⟨s, h3⟩ q) (fun b => match b with
      | ⟨0, _⟩ => rfl
      | ⟨1, _⟩ => rfl
      | ⟨2, _⟩ => rfl)
  · rw [rows_of_le h x q s hs (by omega)]
    exact concatenate_pair_apply_right 1 h x _ (ix3 0 ⟨s, hs⟩ q) rfl rfl (ix3 0 ⟨s - 3, by omega⟩ q) (fun b hb => match b with
      | ⟨0, _⟩ => rfl
      | ⟨1, _⟩ => absurd rfl hb
      | ⟨2, _⟩ => rfl) (by show s - 3 + 3 = s; omega)

/-- The window of 512 rows starting at row k, read at row r: row r + k. -/
theorem window_at (v : S1x515x2048.Idx → EReal) (off : Fin 3 → ℕ) (k : ℕ) (hoff : off = ![0, k, 0])
    (hsl : S1x515x2048.Slices off S1x512x2048) (p : Fin 1) (r : Fin 512) (q : Fin 2048) (hk : r.val + k < 515) :
    extractStridedSlice S1x512x2048 off v hsl (ix3 p r q) = v (ix3 0 ⟨r.val + k, hk⟩ q) := by
  subst hoff
  exact extractStridedSlice_apply _ v hsl _ _ (fun a => match a with
    | ⟨0, _⟩ => by show 0 = 0 + p.val; omega
    | ⟨1, _⟩ => by show r.val + k = k + r.val; omega
    | ⟨2, _⟩ => by show q.val = 0 + q.val; omega)

/-- A weight row broadcast over the tile's rows reads the weight of the channel. -/
theorem weight_at (w : Vec Ideal S1x1x2048 .f32) (p : Fin 1) (r : Fin 512) (q : Fin 2048) :
    broadcastTo S1x512x2048 (shapeCast S1x1x2048 w shapeCasts_S1x1x2048_S1x1x2048) broadcasts_S1x1x2048_S1x512x2048
      (ix3 p r q) = w (ix3 0 0 q) := by
  rw [shapeCast_self]
  exact broadcastTo_apply w _ (ix3 p r q) (ix3 0 0 q) (fun a => match a with
    | ⟨0, _⟩ => by show 0 = if (1 : ℕ) = 1 then 0 else _; rw [if_pos rfl]
    | ⟨1, _⟩ => by show 0 = if (1 : ℕ) = 1 then 0 else _; rw [if_pos rfl]
    | ⟨2, _⟩ => by show q.val = if (2048 : ℕ) = 1 then 0 else q.val; rw [if_neg (by decide)])

/-- The stored tile at row r, channel q: the four taps over rows r to r + 3, added first to last. -/
theorem tile_at (x : Vec Ideal S1x512x2048 .f32) (h : Vec Ideal S1x3x2048 .f32) (w0 w1 w2 w3 : Vec Ideal S1x1x2048 .f32)
    (p : Fin 1) (r : Fin 512) (q : Fin 2048) :
    k0_pay3 (F := Ideal) x h w0 w1 w2 w3 (ix3 p r q)
      = ((w0 (ix3 0 0 q) * rows h x q (r.val + 0) (by omega) + w1 (ix3 0 0 q) * rows h x q (r.val + 1) (by omega))
          + w2 (ix3 0 0 q) * rows h x q (r.val + 2) (by omega)) + w3 (ix3 0 0 q) * rows h x q (r.val + 3) (by omega) := by
  unfold k0_pay3
  simp only [addf_apply, mulf_apply]
  rw [weight_at w0, weight_at w1, weight_at w2, weight_at w3,
    window_at _ _ 0 rfl _ p r q (by omega), window_at _ _ 1 rfl _ p r q (by omega),
    window_at _ _ 2 rfl _ p r q (by omega), window_at _ _ 3 rfl _ p r q (by omega),
    concat_at, concat_at, concat_at, concat_at]

/-- The rows carried to the next point: rows 509 to 511 of the tile. -/
theorem carried_at {F : FTy → Type} [FloatOps F] (x : Vec F S1x512x2048 .f32) (p : Fin 1) (s : Fin 3) (q : Fin 2048) :
    k0_pay1 (k0_pay4 x) (ix3 p s q) = x (ix3 0 ⟨509 + s.val, by omega⟩ q) := by
  unfold k0_pay1 k0_pay4
  rw [shapeCast_self]
  exact extractStridedSlice_apply _ x _ _ _ (fun a => match a with
    | ⟨0, _⟩ => by show 0 = 0 + p.val; omega
    | ⟨1, _⟩ => by show 509 + s.val = 509 + s.val; rfl
    | ⟨2, _⟩ => by show q.val = 0 + q.val; omega)

/-- The rows a batch's first tile starts from: zero. -/
theorem reset_at (p : Fin 1) (s : Fin 3) (q : Fin 2048) : k0_pay2 (F := Ideal) (ix3 p s q) = 0 := by
  unfold k0_pay2
  rw [shapeCast_self]
  show Ideal.ofBits .f32 0x00000000#32 = 0
  exact Ideal.ofBits_zero_f32

end Cert.KernelIdeal.Body

end
-- ==== Proof.ConvTile.lean ====
/-
  The tile one grid point stores is the convolution's tile.

  Point (b, i) of the grid holds time steps 512·i to 512·i + 511 of batch b. If its block of x is that
  stretch of the input, its weight rows are the four columns of W, and the rows it starts from are zero
  for i = 0 and otherwise the three time steps before the stretch, then row s of the 515 rows the taps
  slide over is the input at time 512·i + s - 3, or zero before time 0: the specification's shifted
  input. So the stored tile at row r is the convolution at time 512·i + r.
-/
import proofs.«140467_j21449066676463_1_alg».proof.Proof.ConvSpec
import proofs.«140467_j21449066676463_1_alg».proof.Proof.ConvBody

noncomputable section

namespace Cert.KernelIdeal.Body

open Cert.KernelIdeal Cert.KernelIdeal.Gen Idealize.ShloMosaic Idealize.ShloMosaic.ValueIdx Cert.ConvSpec

/-- Row s of the rows the taps slide over is the shifted input at step 512·i + s. -/
theorem rows_eq_shifted (X : SX.Idx → EReal) (b : Fin 4) (i : ℕ) (hi : i < 8)
    (x : Vec Ideal S1x512x2048 .f32) (h : Vec Ideal S1x3x2048 .f32)
    (hx : ∀ (r : Fin 512) (q : Fin 2048), x (ix3 0 r q) = X (ix3 b ⟨i * 512 + r.val, by omega⟩ q))
    (hh : ∀ (s : Fin 3) (q : Fin 2048), h (ix3 0 s q) = if i = 0 then 0 else X (ix3 b ⟨i * 512 - 3 + s.val, by omega⟩ q))
    (q : Fin 2048) (s : ℕ) (hs : s < 515) :
    rows h x q s hs = shifted X b q (i * 512 + s) (by omega) := by
  by_cases h3 : s < 3
  · rw [rows_of_lt h x q s hs h3, hh ⟨s, h3⟩ q]
    by_cases h0 : i = 0
    · rw [if_pos h0, shifted_of_lt X b q _ _ (by omega)]
    · rw [if_neg h0, shifted_of_le X b q _ _ (by omega)]
      exact congrArg X (funext fun a => Fin.ext (by
        match a with
        | ⟨0, _⟩ => rfl
        | ⟨1, _⟩ => show i * 512 - 3 + s = i * 512 + s - 3; omega
        | ⟨2, _⟩ => rfl))
  · rw [rows_of_le h x q s hs (by omega), hx ⟨s - 3, by omega⟩ q, shifted_of_le X b q _ _ (by omega)]
    exact congrArg X (funext fun a => Fin.ext (by
      match a with
      | ⟨0, _⟩ => rfl
      | ⟨1, _⟩ => show i * 512 + (s - 3) = i * 512 + s - 3; omega
      | ⟨2, _⟩ => rfl))

/-- The stored tile at row r, channel q is the convolution at batch b, time 512·i + r, channel q. -/
theorem tile_conv (X : SX.Idx → EReal) (W : SW.Idx → EReal) (b : Fin 4) (i : ℕ) (hi : i < 8)
    (x : Vec Ideal S1x512x2048 .f32) (h : Vec Ideal S1x3x2048 .f32) (w0 w1 w2 w3 : Vec Ideal S1x1x2048 .f32)
    (hx : ∀ (r : Fin 512) (q : Fin 2048), x (ix3 0 r q) = X (ix3 b ⟨i * 512 + r.val, by omega⟩ q))
    (hh : ∀ (s : Fin 3) (q : Fin 2048), h (ix3 0 s q) = if i = 0 then 0 else X (ix3 b ⟨i * 512 - 3 + s.val, by omega⟩ q))
    (hw0 : ∀ q : Fin 2048, w0 (ix3 0 0 q) = W (ix2 q 0)) (hw1 : ∀ q : Fin 2048, w1 (ix3 0 0 q) = W (ix2 q 1))
    (hw2 : ∀ q : Fin 2048, w2 (ix3 0 0 q) = W (ix2 q 2)) (hw3 : ∀ q : Fin 2048, w3 (ix3 0 0 q) = W (ix2 q 3))
    (p : Fin 1) (r : Fin 512) (q : Fin 2048) :
    k0_pay3 (F := Ideal) x h w0 w1 w2 w3 (ix3 p r q) = conv X W (ix3 b ⟨i * 512 + r.val, by omega⟩ q) := by
  rw [tile_at, conv_apply, hw0, hw1, hw2, hw3,
    rows_eq_shifted X b i hi x h hx hh q, rows_eq_shifted X b i hi x h hx hh q,
    rows_eq_shifted X b i hi x h hx hh q, rows_eq_shifted X b i hi x h hx hh q]
  unfold term
  have e : ∀ k : ℕ, i * 512 + (r.val + k) = i * 512 + r.val + k := fun k => by omega
  simp only [e]
  rfl

end Cert.KernelIdeal.Body

end
-- ==== Proof.ConvGrid.lean ====
/-
  The kernel's run, read as values: the first result is the convolution of the argument arrays, the second
  the cache of the input.

  The grid has 32 points; point t works on tile t % 8 (time steps 512·(t % 8) to 512·(t % 8) + 511) of
  batch t / 8. Its block of x is that stretch of the input, and its four weight rows are the four columns of
  W, which the lines before the region slice out of W and reshape. Whatever point t started from, the rows it
  leaves for the next point are the last three of its own block of x; so point t starts from zero rows when
  t % 8 = 0 (the body resets them) and from the last three time steps of tile t % 8 - 1 of the same batch
  otherwise: in both cases the three time steps before its tile, zero before time 0. The tile it stores is
  therefore the convolution's tile. Every point writes its tile back, the 32 tiles cover the result array,
  and the array ends at the convolution. The lines after the region slice the last three time steps off the
  input, which the region leaves as it was, and transpose them.
-/
import proofs.«140467_j21449066676463_1_alg».proof.Proof.Gen.KernelIdeal.Frame
import proofs.«140467_j21449066676463_1_alg».proof.Proof.ConvPieces
import proofs.«140467_j21449066676463_1_alg».proof.Proof.ConvTile
import Idealize.ShloMosaic.Lib.Pipeline.Value
import Idealize.ShloMosaic.Lib.StableHlo.Run

noncomputable section

namespace Cert.KernelIdeal.Grid

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The printed index maps over the 32 points: point t is tile t % 8 of batch t / 8 for x and y, block 0 for the weights. -/
theorem idx_facts : ∀ t : Fin cfg0.N,
    win0_0.index t (0 : Fin 3) = t.val / 8 ∧ win0_0.index t (1 : Fin 3) = t.val % 8 ∧ win0_0.index t (2 : Fin 3) = 0
    ∧ win0_5.index t (0 : Fin 3) = t.val / 8 ∧ win0_5.index t (1 : Fin 3) = t.val % 8 ∧ win0_5.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0 :=
  (by decide +kernel : ∀ t : Fin grid0.N, _)

section AnyF

variable {F : FTy → Type} [FloatOps F]
variable (m : (ℓ : Loc nD τ sig) → Buf (Elt F) ℓ)

/-- Point t's block of x, and its four weight rows. -/
abbrev xTile (c : Dev nD) (t : Fin cfg0.N) : Vec F S1x512x2048 .f32 := iblk m c 0 t
abbrev wRow0 (c : Dev nD) (t : Fin cfg0.N) : Vec F S1x1x2048 .f32 := iblk m c 1 t
abbrev wRow1 (c : Dev nD) (t : Fin cfg0.N) : Vec F S1x1x2048 .f32 := iblk m c 2 t
abbrev wRow2 (c : Dev nD) (t : Fin cfg0.N) : Vec F S1x1x2048 .f32 := iblk m c 3 t
abbrev wRow3 (c : Dev nD) (t : Fin cfg0.N) : Vec F S1x1x2048 .f32 := iblk m c 4 t

/-- The block of x at point t is time steps 512·(t % 8) onwards of batch t / 8. -/
theorem xTile_at (c : Dev nD) (t : Fin cfg0.N) (p : Fin 1) (r : Fin 512) (q : Fin 2048) :
    xTile m c t (ix3 p r q) = m ((c : Thread nD τ).loc main_arg0)
      (ix3 ⟨t.val / 8, by have := lt_of_lt_of_eq t.isLt N_0; omega⟩ ⟨t.val % 8 * 512 + r.val, by omega⟩ q) := by
  obtain ⟨e0, e1, e2, -⟩ := idx_facts t
  unfold xTile iblk
  rw [View.read_apply]
  show V m c main_arg0 _ = _
  rw [V_main_arg0]
  refine congrArg _ (funext fun a => Fin.ext ?_)
  match a with
  | ⟨0, _⟩ => show win0_0.index t (0 : Fin 3) * 1 + 1 * p.val = t.val / 8; omega
  | ⟨1, _⟩ => show win0_0.index t (1 : Fin 3) * 512 + 1 * r.val = t.val % 8 * 512 + r.val; omega
  | ⟨2, _⟩ => show win0_0.index t (2 : Fin 3) * 2048 + 1 * q.val = q.val; omega

/-- After any point the carried rows are the last three rows of that point's block of x. -/
theorem carried (c : Dev nD) (t : Fin cfg0.N) :
    (outsAt0 m c t.val t.isLt).2 = k0_pay1 (k0_pay4 (xTile m c t)) := by
  by_cases h0 : t.val % 8 = 0
  · rw [outsAt0_A m c t h0]
    dsimp only
    exact Pieces.carryA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  · rw [outsAt0_B m c t h0]
    dsimp only
    exact Pieces.carryB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2

/-- The rows point t starts from: zero at a batch's first tile, else the last three rows of the previous block of x. -/
def startRows (c : Dev nD) (t : Fin cfg0.N) : Vec F S1x3x2048 .f32 :=
  if t.val % 8 = 0 then k0_pay2 (F := F)
  else k0_pay1 (k0_pay4 (xTile m c ⟨t.val - 1, Nat.lt_of_le_of_lt (Nat.sub_le _ _) t.isLt⟩))

/-- What point t leaves in the output's staging buffer. -/
theorem tile (c : Dev nD) (t : Fin cfg0.N) :
    (outsAt0 m c t.val t.isLt).1
      = k0_pay3 (xTile m c t) (startRows m c t) (wRow0 m c t) (wRow1 m c t) (wRow2 m c t) (wRow3 m c t) := by
  by_cases h0 : t.val % 8 = 0
  · rw [outsAt0_A m c t h0]
    dsimp only
    refine (Pieces.tileA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    unfold startRows; rw [if_pos h0]
  · rw [outsAt0_B m c t h0]
    dsimp only
    refine (Pieces.tileB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    unfold startRows; rw [if_neg h0]
    exact congrArg (fun h => k0_pay3 (xTile m c t) h (wRow0 m c t) (wRow1 m c t) (wRow2 m c t) (wRow3 m c t))
      (carried m c ⟨t.val - 1, Nat.lt_of_le_of_lt (Nat.sub_le _ _) t.isLt⟩)

end AnyF

section AnyF2

variable {F : FTy → Type} [FloatOps F]
variable (m : (ℓ : Loc nD τ sig) → Buf (Elt F) ℓ)

/-- Weight row 0 at point t is column 0 of W. -/
theorem wRow0_at (c : Dev nD) (t : Fin cfg0.N) (q : Fin 2048) :
    wRow0 m c t (ix3 0 0 q) = m ((c : Thread nD τ).loc main_arg1) (ix2 q 0) := by
  obtain ⟨-, -, -, -, -, -, e10, e11, e12, -⟩ := idx_facts t
  have e : (V m c main_v2 : S1x1x2048.Idx → Elt F .f32)
      = shapeCast S1x1x2048 (shapeCast S2048 (extractStridedSlice S2048x1 ![0, 0] (m ((c : Thread nD τ).loc main_arg1))
          slices_S2048x4_S2048x1_0_0) shapeCasts_S2048x1_S2048) shapeCasts_S2048_S1x1x2048 := by
    show StableHlo.after (List.flatten [hostOps0]) (fun b => m (c, b)) (Proc.devRef .tc main_v2) = _
    simp only [hostOps0, List.flatten_cons, List.flatten_nil, List.append_nil]
    after_results
    rfl
  unfold wRow0 iblk
  rw [View.read_apply]
  show V m c main_v2 _ = _
  rw [e]
  refine (shapeCast_apply _ shapeCasts_S2048_S1x1x2048 _ (ix1 q) ?_).trans ?_
  · rw [Shape.rowMajor_val_one, Shape.rowMajor_val_three]
    show q.val = ((win0_1.index t (0 : Fin 3) * 1 + 1 * 0) * 1 + (win0_1.index t (1 : Fin 3) * 1 + 1 * 0)) * 2048 + (win0_1.index t (2 : Fin 3) * 2048 + 1 * q.val)
    omega
  refine (shapeCast_apply _ shapeCasts_S2048x1_S2048 (ix1 q) (ix2 q 0) ?_).trans ?_
  · rw [Shape.rowMajor_val_one, Shape.rowMajor_val_two]
    show q.val * 1 + 0 = q.val
    omega
  exact extractStridedSlice_apply _ _ _ (ix2 q 0) (ix2 q 0) (fun a => match a with
    | ⟨0, _⟩ => by show q.val = 0 + q.val; omega
    | ⟨1, _⟩ => by show 0 = 0 + 0; rfl)

/-- Weight row 1 at point t is column 1 of W. -/
theorem wRow1_at (c : Dev nD) (t : Fin cfg0.N) (q : Fin 2048) :
    wRow1 m c t (ix3 0 0 q) = m ((c : Thread nD τ).loc main_arg1) (ix2 q 1) := by
  obtain ⟨-, -, -, -, -, -, -, -, -, e10, e11, e12, -⟩ := idx_facts t
  have e : (V m c main_v5 : S1x1x2048.Idx → Elt F .f32)
      = shapeCast S1x1x2048 (shapeCast S2048 (extractStridedSlice S2048x1 ![0, 1] (m ((c : Thread nD τ).loc main_arg1))
          slices_S2048x4_S2048x1_0_1) shapeCasts_S2048x1_S2048) shapeCasts_S2048_S1x1x2048 := by
    show StableHlo.after (List.flatten [hostOps0]) (fun b => m (c, b)) (Proc.devRef .tc main_v5) = _
    simp only [hostOps0, List.flatten_cons, List.flatten_nil, List.append_nil]
    after_results
    rfl
  unfold wRow1 iblk
  rw [View.read_apply]
  show V m c main_v5 _ = _
  rw [e]
  refine (shapeCast_apply _ shapeCasts_S2048_S1x1x2048 _ (ix1 q) ?_).trans ?_
  · rw [Shape.rowMajor_val_one, Shape.rowMajor_val_three]
    show q.val = ((win0_2.index t (0 : Fin 3) * 1 + 1 * 0) * 1 + (win0_2.index t (1 : Fin 3) * 1 + 1 * 0)) * 2048 + (win0_2.index t (2 : Fin 3) * 2048 + 1 * q.val)
    omega
  refine (shapeCast_apply _ shapeCasts_S2048x1_S2048 (ix1 q) (ix2 q 0) ?_).trans ?_
  · rw [Shape.rowMajor_val_one, Shape.rowMajor_val_two]
    show q.val * 1 + 0 = q.val
    omega
  exact extractStridedSlice_apply _ _ _ (ix2 q 0) (ix2 q 1) (fun a => match a with
    | ⟨0, _⟩ => by show q.val = 0 + q.val; omega
    | ⟨1, _⟩ => by show 1 = 1 + 0; rfl)

/-- Weight row 2 at point t is column 2 of W. -/
theorem wRow2_at (c : Dev nD) (t : Fin cfg0.N) (q : Fin 2048) :
    wRow2 m c t (ix3 0 0 q) = m ((c : Thread nD τ).loc main_arg1) (ix2 q 2) := by
  obtain ⟨-, -, -, -, -, -, -, -, -, -, -, -, e10, e11, e12, -⟩ := idx_facts t
  have e : (V m c main_v8 : S1x1x2048.Idx → Elt F .f32)
      = shapeCast S1x1x2048 (shapeCast S2048 (extractStridedSlice S2048x1 ![0, 2] (m ((c : Thread nD τ).loc main_arg1))
          slices_S2048x4_S2048x1_0_2) shapeCasts_S2048x1_S2048) shapeCasts_S2048_S1x1x2048 := by
    show StableHlo.after (List.flatten [hostOps0]) (fun b => m (c, b)) (Proc.devRef .tc main_v8) = _
    simp only [hostOps0, List.flatten_cons, List.flatten_nil, List.append_nil]
    after_results
    rfl
  unfold wRow2 iblk
  rw [View.read_apply]
  show V m c main_v8 _ = _
  rw [e]
  refine (shapeCast_apply _ shapeCasts_S2048_S1x1x2048 _ (ix1 q) ?_).trans ?_
  · rw [Shape.rowMajor_val_one, Shape.rowMajor_val_three]
    show q.val = ((win0_3.index t (0 : Fin 3) * 1 + 1 * 0) * 1 + (win0_3.index t (1 : Fin 3) * 1 + 1 * 0)) * 2048 + (win0_3.index t (2 : Fin 3) * 2048 + 1 * q.val)
    omega
  refine (shapeCast_apply _ shapeCasts_S2048x1_S2048 (ix1 q) (ix2 q 0) ?_).trans ?_
  · rw [Shape.rowMajor_val_one, Shape.rowMajor_val_two]
    show q.val * 1 + 0 = q.val
    omega
  exact extractStridedSlice_apply _ _ _ (ix2 q 0) (ix2 q 2) (fun a => match a with
    | ⟨0, _⟩ => by show q.val = 0 + q.val; omega
    | ⟨1, _⟩ => by show 2 = 2 + 0; rfl)

/-- Weight row 3 at point t is column 3 of W. -/
theorem wRow3_at (c : Dev nD) (t : Fin cfg0.N) (q : Fin 2048) :
    wRow3 m c t (ix3 0 0 q) = m ((c : Thread nD τ).loc main_arg1) (ix2 q 3) := by
  obtain ⟨-, -, -, -, -, -, -, -, -, -, -, -, -, -, -, e10, e11, e12⟩ := idx_facts t
  have e : (V m c main_v11 : S1x1x2048.Idx → Elt F .f32)
      = shapeCast S1x1x2048 (shapeCast S2048 (extractStridedSlice S2048x1 ![0, 3] (m ((c : Thread nD τ).loc main_arg1))
          slices_S2048x4_S2048x1_0_3) shapeCasts_S2048x1_S2048) shapeCasts_S2048_S1x1x2048 := by
    show StableHlo.after (List.flatten [hostOps0]) (fun b => m (c, b)) (Proc.devRef .tc main_v11) = _
    simp only [hostOps0, List.flatten_cons, List.flatten_nil, List.append_nil]
    after_results
    rfl
  unfold wRow3 iblk
  rw [View.read_apply]
  show V m c main_v11 _ = _
  rw [e]
  refine (shapeCast_apply _ shapeCasts_S2048_S1x1x2048 _ (ix1 q) ?_).trans ?_
  · rw [Shape.rowMajor_val_one, Shape.rowMajor_val_three]
    show q.val = ((win0_4.index t (0 : Fin 3) * 1 + 1 * 0) * 1 + (win0_4.index t (1 : Fin 3) * 1 + 1 * 0)) * 2048 + (win0_4.index t (2 : Fin 3) * 2048 + 1 * q.val)
    omega
  refine (shapeCast_apply _ shapeCasts_S2048x1_S2048 (ix1 q) (ix2 q 0) ?_).trans ?_
  · rw [Shape.rowMajor_val_one, Shape.rowMajor_val_two]
    show q.val * 1 + 0 = q.val
    omega
  exact extractStridedSlice_apply _ _ _ (ix2 q 0) (ix2 q 3) (fun a => match a with
    | ⟨0, _⟩ => by show q.val = 0 + q.val; omega
    | ⟨1, _⟩ => by show 3 = 3 + 0; rfl)

end AnyF2

section AtIdeal

open Cert.ConvSpec

variable (m : (ℓ : Loc nD τ sig) → Buf (Elt Ideal) ℓ) (ρ : Dev nD → PrngReg)

/-- The two argument arrays as launched, over the extended reals. -/
abbrev xArr (c : Dev nD) : SX.Idx → EReal := m ((c : Thread nD τ).loc main_arg0)
abbrev wArr (c : Dev nD) : SW.Idx → EReal := m ((c : Thread nD τ).loc main_arg1)

/-- The rows point t starts from, in terms of the input: zero at a batch's first tile, else the three time
    steps before the tile. -/
theorem startRows_at (c : Dev nD) (t : Fin cfg0.N) (s : Fin 3) (q : Fin 2048) :
    startRows m c t (ix3 0 s q) = if t.val % 8 = 0 then (0 : EReal) else xArr m c
      (ix3 ⟨t.val / 8, by have := lt_of_lt_of_eq t.isLt N_0; omega⟩ ⟨t.val % 8 * 512 - 3 + s.val, by omega⟩ q) := by
  have hN : t.val < 32 := lt_of_lt_of_eq t.isLt N_0
  unfold startRows
  by_cases h0 : t.val % 8 = 0
  · rw [if_pos h0, if_pos h0]; exact Body.reset_at 0 s q
  · rw [if_neg h0, if_neg h0, Body.carried_at, xTile_at]
    exact congrArg _ (funext fun a => Fin.ext (by
      match a with
      | ⟨0, _⟩ => show (t.val - 1) / 8 = t.val / 8; omega
      | ⟨1, _⟩ => show (t.val - 1) % 8 * 512 + (509 + s.val) = t.val % 8 * 512 - 3 + s.val; omega
      | ⟨2, _⟩ => rfl))

/-- What point t writes back is block t of the convolution of the argument arrays. -/
theorem flushed_conv (c : Dev nD) (t : Fin cfg0.N) :
    (dats m 0 c).flushed 5 t = ((cfg0.win 5).blk t).view.read (Elt Ideal) (conv (xArr m c) (wArr m c)) := by
  have hN : t.val < 32 := lt_of_lt_of_eq t.isLt N_0
  obtain ⟨-, -, -, e0, e1, e2, -⟩ := idx_facts t
  show (cfg0.win 5).cut (grid0.coords t) ((dats m 0 c).after 5 t) = _
  rw [after0_5, tile m c t]
  funext j
  show k0_pay3 (xTile m c t) (startRows m c t) (wRow0 m c t) (wRow1 m c t) (wRow2 m c t) (wRow3 m c t) j
      = conv (xArr m c) (wArr m c) (((cfg0.win 5).blk t).view.emb j)
  have hj0 : (j 0).val < 1 := (j 0).isLt
  have hj1 : (j 1).val < 512 := (j 1).isLt
  have hj2 : (j 2).val < 2048 := (j 2).isLt
  have ej : j = ix3 (⟨(j 0).val, hj0⟩ : Fin 1) (⟨(j 1).val, hj1⟩ : Fin 512) (⟨(j 2).val, hj2⟩ : Fin 2048) := by
    funext a
    match a with
    | ⟨0, _⟩ => rfl
    | ⟨1, _⟩ => rfl
    | ⟨2, _⟩ => rfl
  refine (congrArg (k0_pay3 (xTile m c t) (startRows m c t) (wRow0 m c t) (wRow1 m c t) (wRow2 m c t) (wRow3 m c t)) ej).trans ?_
  refine (Body.tile_conv (xArr m c) (wArr m c) ⟨t.val / 8, by omega⟩ (t.val % 8) (by omega)
    (xTile m c t) (startRows m c t) (wRow0 m c t) (wRow1 m c t) (wRow2 m c t) (wRow3 m c t)
    (xTile_at m c t 0) (startRows_at m c t) (wRow0_at m c t) (wRow1_at m c t) (wRow2_at m c t) (wRow3_at m c t)
    ⟨(j 0).val, hj0⟩ ⟨(j 1).val, hj1⟩ ⟨(j 2).val, hj2⟩).trans ?_
  refine congrArg (conv (xArr m c) (wArr m c)) (funext fun a => Fin.ext ?_)
  match a with
  | ⟨0, _⟩ => show t.val / 8 = win0_5.index t (0 : Fin 3) * 1 + 1 * (j 0).val; rw [e0]; omega
  | ⟨1, _⟩ => show t.val % 8 * 512 + (j 1).val = win0_5.index t (1 : Fin 3) * 512 + 1 * (j 1).val; rw [e1]; omega
  | ⟨2, _⟩ => show (j 2).val = win0_5.index t (2 : Fin 3) * 2048 + 1 * (j 2).val; rw [e2]; omega

/-- Every index of the result lies in the block of the point of its batch and tile. -/
theorem covered (i : S4x4096x2048.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 2048 := (i 2).isLt
  obtain ⟨t, ht⟩ : ∃ t : Fin cfg0.N, t.val = (i 0).val * 8 + (i 1).val / 512 :=
    ⟨⟨(i 0).val * 8 + (i 1).val / 512, by rw [show cfg0.N = 32 from N_0]; omega⟩, rfl⟩
  obtain ⟨-, -, -, e0, e1, e2, -⟩ := idx_facts t
  refine ⟨t, flush0_5 t, ?_⟩
  show i ∈ ((View.whole main_v12).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 512 ≤ (i 1).val ∧ (i 1).val < win0_5.index t (1 : Fin 3) * 512 + 512
    rw [e1, ht]; omega
  | ⟨2, _⟩ =>
    show win0_5.index t (2 : Fin 3) * 2048 ≤ (i 2).val ∧ (i 2).val < win0_5.index t (2 : Fin 3) * 2048 + 2048
    rw [e2]; omega

/-- The result array after the run is the convolution. -/
theorem final (c : Dev nD) : (dats m 0 c).arrAt 5 cfg0.N = conv (xArr m c) (wArr m c) :=
  (dats m 0 c).arrAt_eq_of_cover 5 _ (fun t _ => flushed_conv m c t) covered

/-- The lines after the region leave the cache of the input in the second result. -/
theorem tail_cache (c : Dev nD) :
    Pipeline.afterTail₀ cfgs (dats m) 0 (V0 m) [hostOps1] c main_v14 = cache (xArr m c) := by
  unfold Pipeline.afterTail₀
  show StableHlo.after hostOps1 _ (Proc.devRef .tc main_v14) = _
  after_results
  have e : Pipeline.withArrays (cfgs 0).spec c (V0 m c) (fun w => (dats m 0 c).arrAt w (cfgs 0).N)
      (Proc.devRef .tc main_arg0) = xArr m c :=
    (Pipeline.withArrays_arr spec0 launch0.win.arr_inj c _ _ 0).trans
      (((dats m 0 c).arrAt_in 0 rfl _).trans ((A_eq m c 0).trans (V_main_arg0 m c)))
  rw [e]
  funext j
  obtain ⟨b, q, s, rfl⟩ : ∃ (b : Fin 4) (q : Fin 2048) (s : Fin 3), j = ix3 b q s := ⟨j 0, j 1, j 2, eq_ix3 j⟩
  have hs : s.val < 3 := s.isLt
  refine (transpose_apply [0, 2, 1] _ transposes_S4x3x2048_S4x2048x3_0_2_1 (ix3 b q s) (ix3 b s q) (fun a => match a with
    | ⟨0, _⟩ => rfl
    | ⟨1, _⟩ => rfl
    | ⟨2, _⟩ => rfl)).trans ?_
  exact extractStridedSlice_apply _ (xArr m c) slices_S4x4096x2048_S4x3x2048_0_4093_0 (ix3 b s q)
    (ix3 b ⟨4093 + s.val, by omega⟩ q) (fun a => match a with
    | ⟨0, _⟩ => by show b.val = 0 + b.val; omega
    | ⟨1, _⟩ => by show 4093 + s.val = 4093 + s.val; rfl
    | ⟨2, _⟩ => by show q.val = 0 + q.val; omega)

/-- The idealized kernel's run: the first result at the convolution of the arguments, the second at the cache of
    the input, the arguments unchanged. -/
theorem run : θ_run defs (onTc (τ := τ) (main (F := Ideal))) ⟨m, fun _ => 0, ρ⟩ fun r => ∀ c : Dev nD,
      r.2.mem ((c.tc : Thread nD τ).loc main_v12) = conv (xArr m c) (wArr m c)
      ∧ r.2.mem ((c.tc : Thread nD τ).loc main_v14) = cache (xArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 5).trans (final m c),
      ((h c).2 main_v14 (Pipeline.mem_restRefs_of main_v14 (by decide) (by decide))).trans (tail_cache m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end AtIdeal

end Cert.KernelIdeal.Grid

end
-- ==== Proof.RefConv.lean ====
/-
  The reference computes the convolution of the specification.

  It pads the input with three zero time steps in front, takes the four windows of 4096 steps starting at
  steps 0 to 3 of the padded array, multiplies window k by tap k of the weights (a column of W broadcast
  over batch and time) and adds the products to a zero array, first to last. At (b, t, c) window k reads the
  padded array at step t + k, which is the input at time t + k - 3, or zero before the start: the
  specification's shifted input. Over the extended reals 0 + a = a and the product commutes, so the sum is
  the specification's. The cache is the last three steps of the padded array, which are the last three of
  the input.
-/
import proofs.«140467_j21449066676463_1_alg».proof.Proof.Gen.ReferenceIdeal.Read
import proofs.«140467_j21449066676463_1_alg».proof.Proof.ConvSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.ConvSpec

/-- The padding value: the integer zero converted, the real zero. -/
theorem padValue (i : S_.Idx) : val_main_call0_v0 (F := Ideal) i = 0 := by
  show (((0#32 : BitVec 32).toInt : ℝ) : EReal) = 0
  have h : (0#32 : BitVec 32).toInt = 0 := by decide
  rw [h]; simp

/-- The padded array at batch b, step s, channel q is the input shifted by three steps. -/
theorem padded_apply (x : FVec Ideal S4x4096x2048 .f32) (j : S4x4099x2048.Idx) (b : Fin 4) (q : Fin 2048) (s : ℕ)
    (hs : s < 4099) (h0 : (j 0).val = b.val) (h1 : (j 1).val = s) (h2 : (j 2).val = q.val) :
    val_main_v0 (F := Ideal) x j = shifted x b q s hs := by
  unfold val_main_v0 pad
  by_cases h : 3 ≤ s
  · rw [dif_pos, shifted_of_le x b q s hs h]
    · refine congrArg x (funext fun a => Fin.ext ?_)
      match a with
      | ⟨0, _⟩ => show ((j 0).val - 0) / (0 + 1) = b.val; omega
      | ⟨1, _⟩ => show ((j 1).val - 3) / (0 + 1) = s - 3; omega
      | ⟨2, _⟩ => show ((j 2).val - 0) / (0 + 1) = q.val; omega
    · intro a
      match a with
      | ⟨0, _⟩ =>
        refine ⟨?_, ?_, ?_⟩
        · show 0 ≤ (j 0).val; omega
        · show ((j 0).val - 0) % (0 + 1) = 0; omega
        · show ((j 0).val - 0) / (0 + 1) < 4; have := b.isLt; omega
      | ⟨1, _⟩ =>
        refine ⟨?_, ?_, ?_⟩
        · show 3 ≤ (j 1).val; omega
        · show ((j 1).val - 3) % (0 + 1) = 0; omega
        · show ((j 1).val - 3) / (0 + 1) < 4096; omega
      | ⟨2, _⟩ =>
        refine ⟨?_, ?_, ?_⟩
        · show 0 ≤ (j 2).val; omega
        · show ((j 2).val - 0) % (0 + 1) = 0; omega
        · show ((j 2).val - 0) / (0 + 1) < 2048; have := q.isLt; omega
  · rw [dif_neg, shifted_of_lt x b q s hs (by omega)]
    · exact padValue _
    · intro hin
      have := (hin ⟨1, by decide⟩).1
      have h3 : 3 ≤ (j 1).val := this
      omega

/-- Window k of the padded array at (b, t, c). -/
theorem window0 (x : FVec Ideal S4x4096x2048 .f32) (b : Fin 4) (t : Fin 4096) (q : Fin 2048) :
    val_main_v1 (F := Ideal) x (ix3 b t q) = shifted x b q (t.val + (0 : Fin 4).val) (by have := t.isLt; show t.val + 0 < 4099; omega) := by
  rw [val_main_v1_apply]
  exact padded_apply x _ b q _ _ rfl (by show t.val = t.val + 0; omega) rfl
theorem window1 (x : FVec Ideal S4x4096x2048 .f32) (b : Fin 4) (t : Fin 4096) (q : Fin 2048) :
    val_main_v9 (F := Ideal) x (ix3 b t q) = shifted x b q (t.val + (1 : Fin 4).val) (by have := t.isLt; show t.val + 1 < 4099; omega) := by
  rw [val_main_v9_apply]
  exact padded_apply x _ b q _ _ rfl (by show 1 + t.val = t.val + 1; omega) rfl
theorem window2 (x : FVec Ideal S4x4096x2048 .f32) (b : Fin 4) (t : Fin 4096) (q : Fin 2048) :
    val_main_v16 (F := Ideal) x (ix3 b t q) = shifted x b q (t.val + (2 : Fin 4).val) (by have := t.isLt; show t.val + 2 < 4099; omega) := by
  rw [val_main_v16_apply]
  exact padded_apply x _ b q _ _ rfl (by show 2 + t.val = t.val + 2; omega) rfl
theorem window3 (x : FVec Ideal S4x4096x2048 .f32) (b : Fin 4) (t : Fin 4096) (q : Fin 2048) :
    val_main_v23 (F := Ideal) x (ix3 b t q) = shifted x b q (t.val + (3 : Fin 4).val) (by have := t.isLt; show t.val + 3 < 4099; omega) := by
  rw [val_main_v23_apply]
  exact padded_apply x _ b q _ _ rfl (by show 3 + t.val = t.val + 3; omega) rfl

/-- Tap k of the weights broadcast over batch and time, at (b, t, c): W at (c, k). -/
theorem tap0 (W : FVec Ideal S2048x4 .f32) (b : Fin 4) (t : Fin 4096) (q : Fin 2048) :
    val_main_v5 (F := Ideal) W (ix3 b t q) = W (ix2 q 0) := by
  rw [val_main_v5_apply, val_main_v4_apply, val_main_v3_apply, val_main_v2_apply]
  refine congrArg W (funext fun a => Fin.ext ?_)
  match a with
  | ⟨0, _⟩ => show q.val / 1 = q.val; omega
  | ⟨1, _⟩ => rfl
theorem tap1 (W : FVec Ideal S2048x4 .f32) (b : Fin 4) (t : Fin 4096) (q : Fin 2048) :
    val_main_v13 (F := Ideal) W (ix3 b t q) = W (ix2 q 1) := by
  rw [val_main_v13_apply, val_main_v12_apply, val_main_v11_apply, val_main_v10_apply]
  refine congrArg W (funext fun a => Fin.ext ?_)
  match a with
  | ⟨0, _⟩ => show q.val / 1 = q.val; omega
  | ⟨1, _⟩ => rfl
theorem tap2 (W : FVec Ideal S2048x4 .f32) (b : Fin 4) (t : Fin 4096) (q : Fin 2048) :
    val_main_v20 (F := Ideal) W (ix3 b t q) = W (ix2 q 2) := by
  rw [val_main_v20_apply, val_main_v19_apply, val_main_v18_apply, val_main_v17_apply]
  refine congrArg W (funext fun a => Fin.ext ?_)
  match a with
  | ⟨0, _⟩ => show q.val / 1 = q.val; omega
  | ⟨1, _⟩ => rfl
theorem tap3 (W : FVec Ideal S2048x4 .f32) (b : Fin 4) (t : Fin 4096) (q : Fin 2048) :
    val_main_v27 (F := Ideal) W (ix3 b t q) = W (ix2 q 3) := by
  rw [val_main_v27_apply, val_main_v26_apply, val_main_v25_apply, val_main_v24_apply]
  refine congrArg W (funext fun a => Fin.ext ?_)
  match a with
  | ⟨0, _⟩ => show q.val / 1 = q.val; omega
  | ⟨1, _⟩ => rfl

/-- The reference's first result is the convolution. -/
theorem result_conv (x : FVec Ideal S4x4096x2048 .f32) (W : FVec Ideal S2048x4 .f32) :
    val_main_v29 (F := Ideal) x W = conv x W := by
  funext i
  obtain ⟨b, t, q, rfl⟩ : ∃ (b : Fin 4) (t : Fin 4096) (q : Fin 2048), i = ix3 b t q := ⟨i 0, i 1, i 2, eq_ix3 i⟩
  rw [conv_apply, val_main_v29_apply, val_main_v22_apply, val_main_v15_apply, val_main_v8_apply, val_main_v28_apply,
    val_main_v21_apply, val_main_v14_apply, val_main_v6_apply, val_main_v7_apply, val_main_cst_apply,
    window0, window1, window2, window3, tap0, tap1, tap2, tap3]
  simp only [term, Ideal.addf_def, Ideal.mulf_def, Ideal.ofBits_def, Ideal.ofBits_zero_f32, zero_add]
  rw [mul_comm (W (ix2 q 0)), mul_comm (W (ix2 q 1)), mul_comm (W (ix2 q 2)), mul_comm (W (ix2 q 3))]

/-- The reference's second result is the cache. -/
theorem result_cache (x : FVec Ideal S4x4096x2048 .f32) : val_main_v31 (F := Ideal) x = cache x := by
  funext j
  obtain ⟨b, q, s, rfl⟩ : ∃ (b : Fin 4) (q : Fin 2048) (s : Fin 3), j = ix3 b q s := ⟨j 0, j 1, j 2, eq_ix3 j⟩
  have hs : s.val < 3 := s.isLt
  rw [val_main_v31_apply, val_main_v30_apply,
    padded_apply x _ b q (4096 + s.val) (by omega) rfl rfl rfl, shifted_of_le x _ _ _ _ (by omega)]
  unfold cache
  refine congrArg x (funext fun a => Fin.ext ?_)
  match a with
  | ⟨0, _⟩ => rfl
  | ⟨1, _⟩ => show 4096 + s.val - 3 = 4093 + s.val; omega
  | ⟨2, _⟩ => rfl

end Cert.ReferenceIdeal.RefValue

end
-- ==== Proof.lean ====
/-
  A causal depthwise convolution with four taps over (batch, time, channel) = (4, 4096, 2048), tiled in 512
  time steps with the three preceding steps carried from tile to tile, against its plain reference (pad with
  three zero steps, four shifted windows times the four weight columns, summed), together with the cache of
  the last three time steps.

  Both programs compute, at (b, t, c),
      ((W[c,0]·x̄[b,t-3,c] + W[c,1]·x̄[b,t-2,c]) + W[c,2]·x̄[b,t-1,c]) + W[c,3]·x̄[b,t,c]
  with x̄ the input continued by zero before time 0 (Proof/ConvSpec.lean). The kernel multiplies weight by
  input and adds the four products first to last; the reference multiplies input by weight and adds them to a
  zero array in the same order: over the extended reals the product commutes and 0 + a = a, and no other law
  is used, so the precondition is not opened. The kernel side is Proof/ConvGrid.lean (over ConvPieces,
  ConvBody, ConvTile), the reference side Proof/RefConv.lean. The ideal pass rewrote nothing, so `preserves`
  is trivial; the kernels' frames are the generated ones, the reference's its generated run.
-/
import proofs.«140467_j21449066676463_1_alg».proof.Defs
import proofs.«140467_j21449066676463_1_alg».proof.Proof.Gen.Kernel
import proofs.«140467_j21449066676463_1_alg».proof.Proof.Gen.Kernel.Frame
import proofs.«140467_j21449066676463_1_alg».proof.Proof.Gen.KernelIdeal
import proofs.«140467_j21449066676463_1_alg».proof.Proof.Gen.KernelIdeal.Frame
import proofs.«140467_j21449066676463_1_alg».proof.Proof.Gen.ReferenceIdeal
import proofs.«140467_j21449066676463_1_alg».proof.Proof.Gen.Pre_finite_inputs
import proofs.«140467_j21449066676463_1_alg».proof.Proof.Gen.ReferenceIdeal.Run
import proofs.«140467_j21449066676463_1_alg».proof.Proof.Gen.ReferenceIdeal.Read
import proofs.«140467_j21449066676463_1_alg».proof.Proof.ConvGrid
import proofs.«140467_j21449066676463_1_alg».proof.Proof.RefConv
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- Both runs end with the first result at the convolution and the second at the cache of the argument arrays,
    which agree. -/
theorem algebraic : Cert.algebraic_KernelIdeal_ReferenceIdeal := by
  intro m ρ m' ρ' _ hagree
  refine ⟨fun c => Cert.ConvSpec.conv (Cert.KernelIdeal.Grid.xArr m c) (Cert.KernelIdeal.Grid.wArr m c),
    fun c => Cert.ConvSpec.cache (Cert.KernelIdeal.Grid.xArr m c), Cert.KernelIdeal.Grid.run m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v29_eq _ _).trans
      ((Cert.ReferenceIdeal.RefValue.result_conv _ _).trans ?_))
    rw [(hagree c).1, (hagree c).2]
  · refine (h c).2.1.trans ((Cert.ReferenceIdeal.Read.val_main_v31_eq _).trans
      ((Cert.ReferenceIdeal.RefValue.result_cache _).trans ?_))
    rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
